-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x4096 : Shape := ⟨3, ![8, 32, 4096]⟩
abbrev S11008x4096 : Shape := ⟨2, ![11008, 4096]⟩
abbrev S1 : Shape := ⟨1, ![1]⟩
abbrev S11008 : Shape := ⟨1, ![11008]⟩
abbrev S_ : Shape := ⟨0, ![]⟩

class Facts : Prop where
  bcast_S_S8x32x4096 : S_.BroadcastsInDim S8x32x4096 (![] : Fin 0 → Fin S8x32x4096.rank)
  reducesTo_S8x32x4096_S_d0_1_2 : S8x32x4096.ReducesTo [0, 1, 2] S_
  h_S_ : 0 < S_.numel
  bcast_S_S1 : S_.BroadcastsInDim S1 (![] : Fin 0 → Fin S1.rank)
  reducesTo_S1_S_d0 : S1.ReducesTo [0] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S8x32x4096 .f32) (main_arg1 : IVec S11008x4096 32) (main_arg2 : FVec F S1 .f32) (main_arg3 : FVec F S11008 .f32) : IVec S_ 1 :=
  let main_v0 : FVec F S8x32x4096 .f32 := Host.absf main_arg0
  let main_cst : FVec F S_ .f32 := constant S_ .f32 0x7F800000#32
  let main_v1 : FVec F S8x32x4096 .f32 := broadcastInDim S8x32x4096 ![] bcast_S_S8x32x4096 main_cst
  let main_v2 : IVec S8x32x4096 1 := cmpf .olt main_v0 main_v1
  let main_c : IVec S_ 1 := constantI S_ 1 1#1
  let main_v3 : IVec S_ 1 := (fun x v => Host.reduce IntOp.andi x v reducesTo_S8x32x4096_S_d0_1_2 h_S_) main_v2 main_c
  let main_v4 : FVec F S1 .f32 := Host.absf main_arg2
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S11008 .f32 := Host.absf main_arg3
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S8x32x4096 : Shape := ⟨3, ![8, 32, 4096]⟩
abbrev S11008x4096 : Shape := ⟨2, ![11008, 4096]⟩
abbrev S1 : Shape := ⟨1, ![1]⟩
abbrev S11008 : Shape := ⟨1, ![11008]⟩
abbrev S256x4096 : Shape := ⟨2, ![256, 4096]⟩
abbrev S1x1 : Shape := ⟨2, ![1, 1]⟩
abbrev S1x11008 : Shape := ⟨2, ![1, 11008]⟩
abbrev S256x11008 : Shape := ⟨2, ![256, 11008]⟩
abbrev S1x256 : Shape := ⟨2, ![1, 256]⟩
abbrev S256x256 : Shape := ⟨2, ![256, 256]⟩
abbrev S8x32x11008 : Shape := ⟨3, ![8, 32, 11008]⟩

abbrev nBuf : Space → Nat
  | .hbm => 9
  | .vmem => 8
  | .smem => 0
  | _ => 0

abbrev bufTy : (tb : Table) → Fin (tcTables nBuf tb) → BufTy
  | .hbm, ⟨0, _⟩ => ⟨S8x32x4096, .f32⟩
  | .hbm, ⟨1, _⟩ => ⟨S11008x4096, .i32⟩
  | .hbm, ⟨2, _⟩ => ⟨S1, .f32⟩
  | .hbm, ⟨3, _⟩ => ⟨S11008, .f32⟩
  | .hbm, ⟨4, _⟩ => ⟨S256x4096, .f32⟩
  | .hbm, ⟨5, _⟩ => ⟨S1x1, .f32⟩
  | .hbm, ⟨6, _⟩ => ⟨S1x11008, .f32⟩
  | .hbm, ⟨7, _⟩ => ⟨S256x11008, .f32⟩
  | .hbm, ⟨8, _⟩ => ⟨S8x32x11008, .f32⟩
  | .local _ .vmem, ⟨0, _⟩ => ⟨S256x4096, .f32⟩
  | .local _ .vmem, ⟨1, _⟩ => ⟨S256x4096, .i32⟩
  | .local _ .vmem, ⟨2, _⟩ => ⟨S256x4096, .i32⟩
  | .local _ .vmem, ⟨3, _⟩ => ⟨S1x1, .f32⟩
  | .local _ .vmem, ⟨4, _⟩ => ⟨S1x256, .f32⟩
  | .local _ .vmem, ⟨5, _⟩ => ⟨S1x256, .f32⟩
  | .local _ .vmem, ⟨6, _⟩ => ⟨S256x256, .f32⟩
  | .local _ .vmem, ⟨7, _⟩ => ⟨S256x256, .f32⟩
  | _, _ => ⟨S8x32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S8x32x4096_S256x4096 : S8x32x4096.ShapeCasts S256x4096
  shapeCasts_S1_S1x1 : S1.ShapeCasts S1x1
  shapeCasts_S11008_S1x11008 : S11008.ShapeCasts S1x11008
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  bitsLt_bf16_f32 : FTy.bits .bf16 < FTy.bits .f32
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S256x256_S256x256_0_0 : ∀ a, (![0, 0] : Fin 2 → Nat) a + S256x256.size a ≤ S256x256.size a
  h_S256x256 : 0 < S256x256.numel
  shapeCasts_S256x11008_S8x32x11008 : S256x11008.ShapeCasts S8x32x11008
  dot_S256x4096_S256x4096_S256x256_1_1_0_0_n_n_wf : DotDims.WF S256x4096 S256x4096 S256x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S256x4096.size a
  hwx0_0 : ∀ i : grid0.Coords, EltTy.bits .f32 = 32 ∨ (Rect.block (s := S256x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .i32 = 32 ∨ (Rect.block (s := S11008x4096) S256x4096.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x11008.size a
  hwx0_3 : ∀ i : grid0.Coords, EltTy.bits .f32 = 32 ∨ (Rect.block (s := S1x11008) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x11008.size a
  hwx0_4 : ∀ i : grid0.Coords, EltTy.bits .f32 = 32 ∨ (Rect.block (s := S256x11008) S256x256.size (cc0_transform_4 i) (hinb0_4 i)).WholeWords (EltTy.packing .f32)

variable [Facts₀]

def dot_S256x4096_S256x4096_S256x256_1_1_0_0_n_n : DotDims S256x4096 S256x4096 S256x256 where
  lhsContracting := [1]
  rhsContracting := [1]
  lhsNonContracting := [0]
  rhsNonContracting := [0]
  lhsBatch := []
  rhsBatch := []
  wf := dot_S256x4096_S256x4096_S256x256_1_1_0_0_n_n_wf

abbrev win0_0 : Pipeline.Window sig grid0 :=
  Pipeline.Window.ofSpec (Memref.whole main_v0) S256x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S256x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x32x4096 : Shape := ⟨3, ![8, 32, 4096]⟩
abbrev S11008x4096 : Shape := ⟨2, ![11008, 4096]⟩
abbrev S1 : Shape := ⟨1, ![1]⟩
abbrev S11008 : Shape := ⟨1, ![11008]⟩
abbrev S_ : Shape := ⟨0, ![]⟩
abbrev S8x32x11008 : Shape := ⟨3, ![8, 32, 11008]⟩
abbrev S1x1x11008 : Shape := ⟨3, ![1, 1, 11008]⟩

abbrev nBuf : Space → Nat
  | .hbm => 12
  | .vmem => 0
  | .smem => 0
  | _ => 0

abbrev bufTy : (tb : Table) → Fin (tcTables nBuf tb) → BufTy
  | .hbm, ⟨0, _⟩ => ⟨S8x32x4096, .f32⟩
  | .hbm, ⟨1, _⟩ => ⟨S11008x4096, .i32⟩
  | .hbm, ⟨2, _⟩ => ⟨S1, .f32⟩
  | .hbm, ⟨3, _⟩ => ⟨S11008, .f32⟩
  | .hbm, ⟨4, _⟩ => ⟨S11008x4096, .f32⟩
  | .hbm, ⟨5, _⟩ => ⟨S_, .f32⟩
  | .hbm, ⟨6, _⟩ => ⟨S11008x4096, .f32⟩
  | .hbm, ⟨7, _⟩ => ⟨S11008x4096, .f32⟩
  | .hbm, ⟨8, _⟩ => ⟨S8x32x11008, .f32⟩
  | .hbm, ⟨9, _⟩ => ⟨S1x1x11008, .f32⟩
  | .hbm, ⟨10, _⟩ => ⟨S8x32x11008, .f32⟩
  | .hbm, ⟨11, _⟩ => ⟨S8x32x11008, .f32⟩
  | _, _ => ⟨S8x32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  shapeCasts_S1_S_ : S1.ShapeCasts S_
  bcast_S_S11008x4096 : S_.BroadcastsInDim S11008x4096 (![] : Fin 0 → Fin S11008x4096.rank)
  bcast_S11008_S1x1x11008_2 : S11008.BroadcastsInDim S1x1x11008 (![2] : Fin 1 → Fin S1x1x11008.rank)
  bcast_S1x1x11008_S8x32x11008_0_1_2 : S1x1x11008.BroadcastsInDim S8x32x11008 (![0, 1, 2] : Fin 3 → Fin S8x32x11008.rank)
  dot_S8x32x4096_S11008x4096_S8x32x11008_2_1_01_0_n_n_wf : DotDims.WF S8x32x4096 S11008x4096 S8x32x11008 [2] [1] [0, 1] [0] [] []

variable [Facts₀]

def dot_S8x32x4096_S11008x4096_S8x32x11008_2_1_01_0_n_n : DotDims S8x32x4096 S11008x4096 S8x32x11008 where
  lhsContracting := [2]
  rhsContracting := [1]
  lhsNonContracting := [0, 1]
  rhsNonContracting := [0]
  lhsBatch := []
  rhsBatch := []
  wf := dot_S8x32x4096_S11008x4096_S8x32x11008_2_1_01_0_n_n_wf

class Facts : Prop extends Facts₀ where

variable [Facts]
-- ==== Proof.Spec.lean ====
/-
  The quantized dense layer as ONE function of its four argument arrays, over the extended reals:

      out[b, s, o] = Σ_{k < 4096} x[b, s, k] · (w[o, k] · scale[0]) + bias[o]

  where the stored 32-bit integer w[o, k] is read signed and exactly. No rounding appears: every change of
  float format is the identity on the extended reals. The same function is also written over the flattened
  arrays (rows m = 32·b + s), which is the arrangement a blocked computation over the output columns sees;
  the two forms agree entry for entry once each flattened array is read at the matching position.
-/
import Idealize.ShloMosaic.PureOps.Ideal
import Idealize.ShloMosaic.Lib.ValueIdx

noncomputable section

namespace Cert.QLinear

open Idealize.ShloMosaic Idealize.ShloMosaic.ValueIdx
open scoped BigOperators

/-- The dequantized weight at output column `o`, input column `k`: the integer, read signed, times the scale `σ`. -/
def deq (w : (⟨2, ![11008, 4096]⟩ : Shape).Idx → BitVec 32) (σ : EReal) (o : Fin 11008) (k : Fin 4096) : EReal :=
  FloatOps.sitofp (F := Ideal) .f32 (w (ix2 o k)) * σ

/-- The layer over the arrays as given: rank-3 activations, a one-entry scale, a rank-1 bias. -/
def dense (x : (⟨3, ![8, 32, 4096]⟩ : Shape).Idx → EReal) (w : (⟨2, ![11008, 4096]⟩ : Shape).Idx → BitVec 32)
    (sc : (⟨1, ![1]⟩ : Shape).Idx → EReal) (bias : (⟨1, ![11008]⟩ : Shape).Idx → EReal) :
    (⟨3, ![8, 32, 11008]⟩ : Shape).Idx → EReal :=
  fun i => (∑ k : Fin 4096, x (ix3 (i 0) (i 1) k) * deq w (sc (ix1 0)) (i 2) k) + bias (ix1 (i 2))

/-- The layer over the flattened arrays: 256 rows of activations, the scale as a 1×1 array, the bias as one row. -/
def denseFlat (x : (⟨2, ![256, 4096]⟩ : Shape).Idx → EReal) (w : (⟨2, ![11008, 4096]⟩ : Shape).Idx → BitVec 32)
    (sc : (⟨2, ![1, 1]⟩ : Shape).Idx → EReal) (bias : (⟨2, ![1, 11008]⟩ : Shape).Idx → EReal) :
    (⟨2, ![256, 11008]⟩ : Shape).Idx → EReal :=
  fun j => (∑ k : Fin 4096, x (ix2 (j 0) k) * deq w (sc (ix2 0 0)) (j 1) k) + bias (ix2 0 (j 1))

/-- Row `32·b + s` of the flattened output is entry `(b, s)` of the layer, when the flattened activations, scale
    and bias hold the given arrays' entries at the matching positions. -/
theorem denseFlat_row {x : (⟨3, ![8, 32, 4096]⟩ : Shape).Idx → EReal} {w : (⟨2, ![11008, 4096]⟩ : Shape).Idx → BitVec 32}
    {sc : (⟨1, ![1]⟩ : Shape).Idx → EReal} {bias : (⟨1, ![11008]⟩ : Shape).Idx → EReal}
    {xf : (⟨2, ![256, 4096]⟩ : Shape).Idx → EReal} {scf : (⟨2, ![1, 1]⟩ : Shape).Idx → EReal}
    {bf : (⟨2, ![1, 11008]⟩ : Shape).Idx → EReal}
    (hx : ∀ (b : Fin 8) (s : Fin 32) (r : Fin 256) (k : Fin 4096), r.val = b.val * 32 + s.val → xf (ix2 r k) = x (ix3 b s k))
    (hs : scf (ix2 0 0) = sc (ix1 0)) (hb : ∀ o : Fin 11008, bf (ix2 0 o) = bias (ix1 o))
    (b : Fin 8) (s : Fin 32) (o : Fin 11008) (r : Fin 256) (hr : r.val = b.val * 32 + s.val) :
    denseFlat xf w scf bf (ix2 r o) = dense x w sc bias (ix3 b s o) := by
  unfold denseFlat dense
  show (∑ k : Fin 4096, xf (ix2 r k) * deq w (scf (ix2 0 0)) o k) + bf (ix2 0 o)
    = (∑ k : Fin 4096, x (ix3 b s k) * deq w (sc (ix1 0)) o k) + bias (ix1 o)
  rw [hs, hb o]
  exact congrArg (· + bias (ix1 o)) (Finset.sum_congr rfl fun k _ => by rw [hx b s r k hr])

end Cert.QLinear

end
-- ==== Proof.RefValue.lean ====
/-
  The reference's result is the layer `Cert.QLinear.dense` of the argument arrays, entry by entry.

  The reference converts the integer weight, multiplies it by the scale broadcast from a rank-0 array, contracts
  the activations' last axis against the weight's last axis, and adds the bias broadcast along the two leading
  axes. Read at an output entry (b, s, o): the contraction is the sum over k of x[b, s, k] times the scaled weight
  at (o, k); the broadcast scale is the scale array's one entry; the broadcast bias is bias[o].
-/
import proofs.«150259_j41420664602841_1_alg».proof.Proof.Gen.ReferenceIdeal.Read
import proofs.«150259_j41420664602841_1_alg».proof.Proof.Spec

noncomputable section

namespace Cert.ReferenceIdeal.RefValue

open Cert.ReferenceIdeal Cert.ReferenceIdeal.Gen Cert.ReferenceIdeal.Read
open Idealize.ShloMosaic Idealize.ShloMosaic.ValueIdx
open scoped BigOperators

/-- A rank-0 array has one entry; reshaping the one-entry scale to rank 0 and reading it gives that entry. -/
theorem scale_entry (x2 : (⟨S1, .f32⟩ : BufTy).Contents (Elt Ideal)) (j : S_.Idx) :
    val_main_v1 (F := Ideal) x2 j = x2 (ix1 0) := by
  unfold val_main_v1
  refine shapeCast_apply x2 _ j (ix1 0) ?_
  rw [Shape.rowMajor_val_one]
  have h := (S_.rowMajor j).isLt
  have h1 : S_.numel = 1 := by decide
  show (0 : ℕ) = _
  omega

/-- The contraction's left operand index at output entry `i` and summand `k` is `(i 0, i 1, k)`. -/
theorem lidx_eq (i : S8x32x11008.Idx) (k : Fin 4096) : lidx_main_v4 i k = ix3 (i 0) (i 1) k :=
  funext fun a => by match a with | ⟨0, _⟩ => rfl | ⟨1, _⟩ => rfl | ⟨2, _⟩ => rfl

/-- Its right operand index is `(i 2, k)`. -/
theorem ridx_eq (i : S8x32x11008.Idx) (k : Fin 4096) : ridx_main_v4 i k = ix2 (i 2) k :=
  funext fun a => by match a with | ⟨0, _⟩ => rfl | ⟨1, _⟩ => rfl

/-- The twice-broadcast bias read at `i` is the bias at column `i 2`. -/
theorem bidx_eq (i : S8x32x11008.Idx) : idx_main_v5 (idx_main_v6 i) = ix1 (i 2) :=
  funext fun a => by match a with | ⟨0, _⟩ => rfl

/-- The reference's result, as a function of the four arguments, is the layer. -/
theorem ref_eq (x0 : (⟨S8x32x4096, .f32⟩ : BufTy).Contents (Elt Ideal)) (x1 : (⟨S11008x4096, .i32⟩ : BufTy).Contents (Elt Ideal))
    (x2 : (⟨S1, .f32⟩ : BufTy).Contents (Elt Ideal)) (x3 : (⟨S11008, .f32⟩ : BufTy).Contents (Elt Ideal)) :
    val_main_v7 (F := Ideal) x0 x1 x2 x3 = Cert.QLinear.dense x0 x1 x2 x3 := by
  funext i
  rw [val_main_v7_apply, val_main_v4_apply, val_main_v6_apply, val_main_v5_apply, bidx_eq]
  unfold Cert.QLinear.dense Cert.QLinear.deq
  refine congrArg (· + x3 (ix1 (i 2))) (Finset.sum_congr rfl fun k _ => ?_)
  rw [val_main_v3_apply, val_main_v0_apply, val_main_v2_apply, scale_entry, lidx_eq, ridx_eq]
  rfl

end Cert.ReferenceIdeal.RefValue

end
-- ==== Proof.KernelBody.lean ====
/-
  What one grid step of the kernel stores, entry by entry, over the extended reals.

  A step holds the 256×4096 activations `xs`, a 256×4096 tile `wt` of integer weights (256 output columns), the 1×1
  scale `sc` and a 1×256 bias tile `bt`. It scales the converted weights, multiplies the activations by the
  scaled tile contracting the 4096-long axis of both (into a zero accumulator), and adds the bias row to every
  row. The two narrowings to a shorter float format are the identity here. So the stored 256×256 tile at
  (p, q) is  Σ_k xs[p, k] · (wt[q, k] · sc[0, 0]) + bt[0, q].
-/
import proofs.«150259_j41420664602841_1_alg».proof.Proof.Gen.KernelIdeal.Skeleton
import Idealize.ShloMosaic.Lib.ValueIdx
import Idealize.ShloMosaic.Lib.Pipeline.Value
import Idealize.ShloMosaic.PureOps.Ideal.Laws
import proofs.«150259_j41420664602841_1_alg».proof.Proof.Spec

noncomputable section

namespace Cert.KernelIdeal.Body

open Cert.KernelIdeal Cert.KernelIdeal.Gen
open Idealize.ShloMosaic Idealize.ShloMosaic.ValueIdx
open scoped BigOperators

/-! ### The product's operand indices: rows of the left operand, rows of the right, one contracted axis -/

theorem lhs_row (i : S256x256.Idx) (q : dot_S256x4096_S256x4096_S256x256_1_1_0_0_n_n.contr.Idx) :
    (dot_S256x4096_S256x4096_S256x256_1_1_0_0_n_n.lhsIdx i q 0).val = (i 0).val := by
  unfold DotDims.lhsIdx
  rw [dif_neg (show ¬(0 : Fin S256x4096.rank) ∈ dot_S256x4096_S256x4096_S256x256_1_1_0_0_n_n.lhsBatch by decide), dif_pos (show (0 : Fin S256x4096.rank) ∈ dot_S256x4096_S256x4096_S256x256_1_1_0_0_n_n.lhsNonContracting by decide)]
  rfl
theorem lhs_contr (i : S256x256.Idx) (q : dot_S256x4096_S256x4096_S256x256_1_1_0_0_n_n.contr.Idx) :
    (dot_S256x4096_S256x4096_S256x256_1_1_0_0_n_n.lhsIdx i q 1).val = (q ⟨0, by decide⟩).val :=
  dot_S256x4096_S256x4096_S256x256_1_1_0_0_n_n.lhsIdx_val_of_single rfl i q
theorem rhs_row (i : S256x256.Idx) (q : dot_S256x4096_S256x4096_S256x256_1_1_0_0_n_n.contr.Idx) :
    (dot_S256x4096_S256x4096_S256x256_1_1_0_0_n_n.rhsIdx i q 0).val = (i 1).val := by
  unfold DotDims.rhsIdx
  rw [dif_neg (show ¬(0 : Fin S256x4096.rank) ∈ dot_S256x4096_S256x4096_S256x256_1_1_0_0_n_n.rhsBatch by decide), dif_pos (show (0 : Fin S256x4096.rank) ∈ dot_S256x4096_S256x4096_S256x256_1_1_0_0_n_n.rhsNonContracting by decide)]
  rfl
theorem rhs_contr (i : S256x256.Idx) (q : dot_S256x4096_S256x4096_S256x256_1_1_0_0_n_n.contr.Idx) :
    (dot_S256x4096_S256x4096_S256x256_1_1_0_0_n_n.rhsIdx i q 1).val = (q ⟨0, by decide⟩).val :=
  dot_S256x4096_S256x4096_S256x256_1_1_0_0_n_n.rhsIdx_val_of_single rfl i q

/-- The product into the zero accumulator at (p, q): the sum over the shared axis of row p of the left operand
    against row q of the right. -/
theorem product_apply (l r : FVec Ideal S256x4096 .bf16) (p q : Fin 256) :
    matmul (F := Ideal) dot_S256x4096_S256x4096_S256x256_1_1_0_0_n_n none l r (constant (F := Ideal) S256x256 .f32 0x00000000#32) (ix2 p q)
      = ∑ k : Fin 4096, l (ix2 p k) * r (ix2 q k) := by
  show FloatOps.matmul dot_S256x4096_S256x4096_S256x256_1_1_0_0_n_n none l r (constant (F := Ideal) S256x256 .f32 0x00000000#32) (ix2 p q) = _
  rw [Ideal.matmul_constant_zero_apply, ← Equiv.sum_comp (ValueIdx.contrEquiv1 dot_S256x4096_S256x4096_S256x256_1_1_0_0_n_n 4096 rfl rfl).symm]
  refine Finset.sum_congr rfl fun k _ => ?_
  have hk := ValueIdx.contrEquiv1_symm_val dot_S256x4096_S256x4096_S256x256_1_1_0_0_n_n 4096 rfl rfl k
  have el : dot_S256x4096_S256x4096_S256x256_1_1_0_0_n_n.lhsIdx (ix2 p q) ((ValueIdx.contrEquiv1 dot_S256x4096_S256x4096_S256x256_1_1_0_0_n_n 4096 rfl rfl).symm k) = ix2 p k := funext fun a => Fin.ext (by
    match a with
    | ⟨0, _⟩ => exact lhs_row _ _
    | ⟨1, _⟩ => exact (lhs_contr _ _).trans hk)
  have er : dot_S256x4096_S256x4096_S256x256_1_1_0_0_n_n.rhsIdx (ix2 p q) ((ValueIdx.contrEquiv1 dot_S256x4096_S256x4096_S256x256_1_1_0_0_n_n 4096 rfl rfl).symm k) = ix2 q k := funext fun a => Fin.ext (by
    match a with
    | ⟨0, _⟩ => exact rhs_row _ _
    | ⟨1, _⟩ => exact (rhs_contr _ _).trans hk)
  rw [el, er]

/-- The bias row broadcast to 256 rows, read at (p, q), is the row's entry q. -/
theorem bias_rows_apply (bt : FVec Ideal S1x256 .f32) (p q : Fin 256) :
    broadcastTo S256x256 bt broadcasts_S1x256_S256x256 (ix2 p q) = bt (ix2 0 q) :=
  broadcastTo_apply bt broadcasts_S1x256_S256x256 (ix2 p q) (ix2 0 q) (fun a => by
    match a with
    | ⟨0, _⟩ => show (0 : ℕ) = if (1 : ℕ) = 1 then 0 else _; rw [if_pos rfl]
    | ⟨1, _⟩ => show q.val = if (256 : ℕ) = 1 then 0 else q.val; rw [if_neg (by decide)])

/-- THE STEP'S STORED TILE at (p, q). -/
theorem stored_apply (xs : Vec Ideal S256x4096 .f32) (sc : Vec Ideal S1x1 .f32) (wt : Vec Ideal S256x4096 .i32)
    (bt : Vec Ideal S1x256 .f32) (p q : Fin 256) :
    k0_pay1 (F := Ideal) xs sc wt bt (ix2 p q)
      = (∑ k : Fin 4096, xs (ix2 p k) * (FloatOps.sitofp (F := Ideal) .f32 (wt (ix2 q k)) * sc (ix2 0 0))) + bt (ix2 0 q) := by
  unfold k0_pay1
  rw [addf_apply, product_apply, shapeCast_self, bias_rows_apply, shapeCast_self]
  have hs : extractAt ![0, 0] sc inpos_S1x1_p0_0 = sc (ix2 0 0) :=
    congrArg sc (funext fun a => by match a with | ⟨0, _⟩ => rfl | ⟨1, _⟩ => rfl)
  refine congrArg (· + bt (ix2 0 q)) (Finset.sum_congr rfl fun k _ => ?_)
  show xs (ix2 p k) * (FloatOps.sitofp (F := Ideal) .f32 (wt (ix2 q k)) * extractAt ![0, 0] sc inpos_S1x1_p0_0) = _
  rw [hs]

/-- THE STORED TILE IS A TILE OF THE FLATTENED LAYER. If the step's activations are the flattened activations `X`,
    its weight tile holds rows `256·n … 256·n + 255` of the weight `W`, its scale is `S`'s entry and its bias tile
    holds columns `256·n …` of the bias row `B`, then the stored tile at (p, q) is the flattened layer of
    `X, W, S, B` at row p, column `256·n + q`. -/
theorem stored_is_tile (xs : Vec Ideal S256x4096 .f32) (sc : Vec Ideal S1x1 .f32) (wt : Vec Ideal S256x4096 .i32)
    (bt : Vec Ideal S1x256 .f32)
    (X : (⟨2, ![256, 4096]⟩ : Shape).Idx → EReal) (W : (⟨2, ![11008, 4096]⟩ : Shape).Idx → BitVec 32)
    (S : (⟨2, ![1, 1]⟩ : Shape).Idx → EReal) (B : (⟨2, ![1, 11008]⟩ : Shape).Idx → EReal) (n : ℕ)
    (hx : ∀ (p : Fin 256) (k : Fin 4096), xs (ix2 p k) = X (ix2 p k))
    (hw : ∀ (q : Fin 256) (k : Fin 4096) (o : Fin 11008), o.val = n * 256 + q.val → wt (ix2 q k) = W (ix2 o k))
    (hs : sc (ix2 0 0) = S (ix2 0 0))
    (hb : ∀ (q : Fin 256) (o : Fin 11008), o.val = n * 256 + q.val → bt (ix2 0 q) = B (ix2 0 o))
    (p q : Fin 256) (o : Fin 11008) (ho : o.val = n * 256 + q.val) :
    k0_pay1 (F := Ideal) xs sc wt bt (ix2 p q) = Cert.QLinear.denseFlat X W S B (ix2 p o) := by
  rw [stored_apply]
  unfold Cert.QLinear.denseFlat Cert.QLinear.deq
  show _ = (∑ k : Fin 4096, X (ix2 p k) * (FloatOps.sitofp (F := Ideal) .f32 (W (ix2 o k)) * S (ix2 0 0))) + B (ix2 0 o)
  rw [hs, hb q o ho]
  exact congrArg (· + B (ix2 0 o)) (Finset.sum_congr rfl fun k _ => by rw [hx p k, hw q k o ho])

end Cert.KernelIdeal.Body

end
-- ==== Proof.KernelBlocks.lean ====
/-
  From the grid steps' tiles to the whole 256×11008 array the kernel region leaves.

  Step t (0 ≤ t < 43) reads all 256 rows of the flattened activations, weight rows 256·t … 256·t + 255, the 1×1 scale
  and bias columns 256·t … 256·t + 255, and writes back the 256×256 tile of output columns 256·t … 256·t + 255. Each
  written tile is the matching tile of the flattened layer of the arrays the region finds, and the 43 tiles
  cover every column (column o lies in tile o / 256), so the array ends holding the flattened layer.
-/
import proofs.«150259_j41420664602841_1_alg».proof.Proof.Gen.KernelIdeal.Frame
import proofs.«150259_j41420664602841_1_alg».proof.Proof.KernelBody
import Idealize.ShloMosaic.Lib.Pipeline.Value

set_option maxRecDepth 16384

noncomputable section

namespace Cert.KernelIdeal.Blocks

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

theorem zero_offsets : (![0, 0] : Fin 2 → Nat) = fun _ => 0 := funext fun a => by fin_cases a <;> rfl

/-- The flattened layer of the four arrays as the region finds them on core `c`. -/
abbrev flatOut (c : Dev nD) : S256x11008.Idx → EReal :=
  Cert.QLinear.denseFlat (V m c main_v0) (V m c main_arg1) (V m c main_v1) (V m c main_v2)

/-- Which block of its array each window is on at step `t`: the activations and the scale stay on block (0, 0);
    the weight is on row-block `t`; the bias and the output are on column-block `t`. -/
theorem block_indices : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)

/-- WHAT STEP `t` WRITES BACK is tile `t` of the flattened layer. -/
theorem flushed_eq (c : Dev nD) (t : Fin cfg0.N) :
    (dats m 0 c).flushed 4 t = ((cfg0.win 4).blk t).view.read (Elt Ideal) (flatOut m c) := by
  show (cfg0.win 4).cut (grid0.coords t) ((dats m 0 c).after 4 t) = _
  rw [after0_4]
  unfold out0_4
  rw [View.canon_unit_zero zero_offsets]
  simp only [View.ld_unit_zero (S := S256x4096) zero_offsets, View.ld_unit_zero (S := S1x1) zero_offsets,
    View.ld_unit_zero (S := S1x256) zero_offsets]
  obtain ⟨a0, a1, w0, w1, s0, s1, b0, b1, o0, o1⟩ := block_indices t
  have ht : t.val < 43 := Nat.lt_of_lt_of_eq t.isLt N_0
  funext j
  have hj0 : (j 0).val < 256 := (j 0).isLt
  have hj1 : (j 1).val < 256 := (j 1).isLt
  have ej : j = ix2 (⟨(j 0).val, hj0⟩ : Fin 256) (⟨(j 1).val, hj1⟩ : Fin 256) :=
    funext fun a => by match a with | ⟨0, _⟩ => rfl | ⟨1, _⟩ => rfl
  have hemb : ((cfg0.win 4).blk t).view.emb j
      = ix2 (⟨(j 0).val, hj0⟩ : Fin 256) (⟨t.val * 256 + (j 1).val, by omega⟩ : Fin 11008) := by
    funext a; apply Fin.ext
    match a with
    | ⟨0, _⟩ => show win0_4.index t (0 : Fin 2) * 256 + 1 * (j 0).val = (j 0).val; omega
    | ⟨1, _⟩ => show win0_4.index t (1 : Fin 2) * 256 + 1 * (j 1).val = t.val * 256 + (j 1).val; omega
  show k0_pay1 (F := Ideal) (iblk m c 0 t) (iblk m c 2 t) (iblk m c 1 t) (iblk m c 3 t) j = flatOut m c (((cfg0.win 4).blk t).view.emb j)
  rw [hemb]
  refine (congrArg (k0_pay1 (F := Ideal) (iblk m c 0 t) (iblk m c 2 t) (iblk m c 1 t) (iblk m c 3 t)) ej).trans ?_
  refine Cert.KernelIdeal.Body.stored_is_tile (iblk m c 0 t) (iblk m c 2 t) (iblk m c 1 t) (iblk m c 3 t)
    (V m c main_v0) (V m c main_arg1) (V m c main_v1) (V m c main_v2) t.val ?_ ?_ ?_ ?_
    (⟨(j 0).val, hj0⟩ : Fin 256) (⟨(j 1).val, hj1⟩ : Fin 256) (⟨t.val * 256 + (j 1).val, by omega⟩ : Fin 11008) rfl
  · intro p k
    show V m c main_v0 (((cfg0.win 0).blk t).view.emb (ix2 p k)) = V m c main_v0 (ix2 p k)
    refine congrArg (V m c main_v0) (funext fun a => Fin.ext ?_)
    match a with
    | ⟨0, _⟩ => show win0_0.index t (0 : Fin 2) * 256 + 1 * p.val = p.val; omega
    | ⟨1, _⟩ => show win0_0.index t (1 : Fin 2) * 4096 + 1 * k.val = k.val; omega
  · intro q k o ho
    show V m c main_arg1 (((cfg0.win 1).blk t).view.emb (ix2 q k)) = V m c main_arg1 (ix2 o k)
    refine congrArg (V m c main_arg1) (funext fun a => Fin.ext ?_)
    match a with
    | ⟨0, _⟩ => show win0_1.index t (0 : Fin 2) * 256 + 1 * q.val = o.val; omega
    | ⟨1, _⟩ => show win0_1.index t (1 : Fin 2) * 4096 + 1 * k.val = k.val; omega
  · show V m c main_v1 (((cfg0.win 2).blk t).view.emb (ix2 0 0)) = V m c main_v1 (ix2 0 0)
    refine congrArg (V m c main_v1) (funext fun a => Fin.ext ?_)
    match a with
    | ⟨0, _⟩ => show win0_2.index t (0 : Fin 2) * 1 + 1 * 0 = 0; omega
    | ⟨1, _⟩ => show win0_2.index t (1 : Fin 2) * 1 + 1 * 0 = 0; omega
  · intro q o ho
    show V m c main_v2 (((cfg0.win 3).blk t).view.emb (ix2 0 q)) = V m c main_v2 (ix2 0 o)
    refine congrArg (V m c main_v2) (funext fun a => Fin.ext ?_)
    match a with
    | ⟨0, _⟩ => show win0_3.index t (0 : Fin 2) * 1 + 1 * 0 = 0; omega
    | ⟨1, _⟩ => show win0_3.index t (1 : Fin 2) * 256 + 1 * q.val = o.val; omega

/-- An index of the output array is in step `t`'s tile iff each coordinate is in the tile's range on its axis. -/
theorem mem_tile (t : Fin cfg0.N) (i : S256x11008.Idx) :
    i ∈ ((cfg0.win 4).blk t).view.set ↔ ∀ a : Fin 2, win0_4.index t a * S256x256.size a ≤ (i a).val ∧ (i a).val < win0_4.index t a * S256x256.size a + S256x256.size a := by
  show i ∈ ((View.whole main_v3).slice (win0_4.rect t)).set ↔ _
  rw [View.set_slice_whole, Rect.mem_set_unit]
  exact Iff.rfl

/-- Every entry of the output array is in some step's tile: column `o` is in tile `o / 256`. -/
theorem tiles_cover (i : S256x11008.Idx) :
    ∃ t : Fin cfg0.N, (cfg0.win 4).flush t = true ∧ i ∈ ((cfg0.win 4).blk t).view.set := by
  have hi0 : (i 0).val < 256 := (i 0).isLt
  have hi1 : (i 1).val < 11008 := (i 1).isLt
  obtain ⟨t, ht⟩ : ∃ t : Fin cfg0.N, t.val = (i 1).val / 256 :=
    ⟨⟨(i 1).val / 256, by show _ < grid0.N; rw [N_0]; omega⟩, rfl⟩
  obtain ⟨a0, a1, w0, w1, s0, s1, b0, b1, o0, o1⟩ := block_indices t
  refine ⟨t, flush0_4 t, ?_⟩
  rw [mem_tile]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 256 ≤ (i 1).val ∧ (i 1).val < win0_4.index t (1 : Fin 2) * 256 + 256; omega

/-- THE OUTPUT ARRAY AFTER THE REGION is the flattened layer of the arrays the region found. -/
theorem region_result (c : Dev nD) : (dats m 0 c).arrAt 4 cfg0.N = flatOut m c :=
  (dats m 0 c).arrAt_eq_of_cover 4 (flatOut m c) (fun t _ => flushed_eq m c t) tiles_cover

end Cert.KernelIdeal.Blocks

end
-- ==== Proof.KernelValue.lean ====
/-
  The kernel program's result array is the layer `Cert.QLinear.dense` of its four argument arrays.

  Around the region @main only reshapes: before it, the activations to 256 rows (row 32·b + s is entry (b, s)), the
  one-entry scale to 1×1 and the bias to one row; after it, the 256×11008 array back to 8×32×11008. A reshape keeps
  every entry at its row-major position, so entry (b, s, o) of the result is entry (32·b + s, o) of the array the
  region leaves, which is the flattened layer there, and that is the layer of the arguments at (b, s, o).
-/
import proofs.«150259_j41420664602841_1_alg».proof.Proof.KernelBlocks
import Idealize.ShloMosaic.Lib.StableHlo.Run

set_option maxRecDepth 16384

noncomputable section

namespace Cert.KernelIdeal.Result

open Cert.KernelIdeal Cert.KernelIdeal.Gen Cert.KernelIdeal.Blocks
open Idealize.ShloMosaic Idealize.ShloMosaic.TcCoe Idealize.ShloMosaic.ValueIdx Idealize.ShloMosaic.StableHlo
open Idealize.SL.Sem
open Idealize.ShloMosaic.Pipeline (Dat Cfg Window)

variable (m : (ℓ : Loc nD τ sig) → Buf (Elt Ideal) ℓ) (ρ : Dev nD → PrngReg)

/-! ### The arrays the region finds: the arguments, reshaped -/

theorem found_acts (c : Dev nD) :
    V m c main_v0 = shapeCast S256x4096 (m ((c : Thread nD τ).loc main_arg0)) shapeCasts_S8x32x4096_S256x4096 := by
  show StableHlo.after hostOps0 (fun b => m (c, b)) (Proc.devRef .tc main_v0) = _
  after_results <;> rfl

theorem found_scale (c : Dev nD) :
    V m c main_v1 = shapeCast S1x1 (m ((c : Thread nD τ).loc main_arg2)) shapeCasts_S1_S1x1 := by
  show StableHlo.after hostOps0 (fun b => m (c, b)) (Proc.devRef .tc main_v1) = _
  after_results <;> rfl

theorem found_bias (c : Dev nD) :
    V m c main_v2 = shapeCast S1x11008 (m ((c : Thread nD τ).loc main_arg3)) shapeCasts_S11008_S1x11008 := by
  show StableHlo.after hostOps0 (fun b => m (c, b)) (Proc.devRef .tc main_v2) = _
  after_results <;> rfl

/-- Row `32·b + s` of the flattened activations is row (b, s) of the argument. -/
theorem acts_entry (c : Dev nD) (b : Fin 8) (s : Fin 32) (r : Fin 256) (k : Fin 4096) (hr : r.val = b.val * 32 + s.val) :
    V m c main_v0 (ix2 r k) = m ((c : Thread nD τ).loc main_arg0) (ix3 b s k) := by
  rw [found_acts]
  refine shapeCast_apply _ _ (ix2 r k) (ix3 b s k) ?_
  rw [Shape.rowMajor_val_three, Shape.rowMajor_val_two]
  show (b.val * 32 + s.val) * 4096 + k.val = r.val * 4096 + k.val
  rw [hr]

theorem scale_entry (c : Dev nD) : V m c main_v1 (ix2 0 0) = m ((c : Thread nD τ).loc main_arg2) (ix1 0) := by
  rw [found_scale]
  refine shapeCast_apply _ _ (ix2 0 0) (ix1 0) ?_
  rw [Shape.rowMajor_val_one, Shape.rowMajor_val_two]
  rfl

theorem bias_entry (c : Dev nD) (o : Fin 11008) : V m c main_v2 (ix2 0 o) = m ((c : Thread nD τ).loc main_arg3) (ix1 o) := by
  rw [found_bias]
  refine shapeCast_apply _ _ (ix2 0 o) (ix1 o) ?_
  rw [Shape.rowMajor_val_one, Shape.rowMajor_val_two]
  show o.val = 0 * 11008 + o.val
  omega

/-! ### The result after the closing reshape -/

/-- The result buffer after @main: the region's output array, reshaped. -/
theorem result_is_reshape (c : Dev nD) :
    Pipeline.afterTail₀ cfgs (dats m) 0 (V0 m) [hostOps1] c main_v4
      = shapeCast S8x32x11008 ((dats m 0 c).arrAt 4 cfg0.N) shapeCasts_S256x11008_S8x32x11008 := by
  unfold Pipeline.afterTail₀
  show StableHlo.after hostOps1 _ (Proc.devRef .tc main_v4) = _
  after_results
  exact congrArg (fun v => shapeCast S8x32x11008 v shapeCasts_S256x11008_S8x32x11008)
    (Pipeline.withArrays_arr spec0 launch0.win.arr_inj c _ _ 4)

/-- THE KERNEL PROGRAM'S RESULT is the layer of its arguments. -/
theorem result_eq (c : Dev nD) :
    Pipeline.afterTail₀ cfgs (dats m) 0 (V0 m) [hostOps1] c main_v4
      = Cert.QLinear.dense (m ((c : Thread nD τ).loc main_arg0)) (m ((c : Thread nD τ).loc main_arg1))
          (m ((c : Thread nD τ).loc main_arg2)) (m ((c : Thread nD τ).loc main_arg3)) := by
  rw [result_is_reshape, region_result]
  funext i
  have hi0 : (i 0).val < 8 := (i 0).isLt
  have hi1 : (i 1).val < 32 := (i 1).isLt
  have key := Cert.QLinear.denseFlat_row (x := m ((c : Thread nD τ).loc main_arg0)) (w := m ((c : Thread nD τ).loc main_arg1))
    (sc := m ((c : Thread nD τ).loc main_arg2)) (bias := m ((c : Thread nD τ).loc main_arg3))
    (xf := V m c main_v0) (scf := V m c main_v1) (bf := V m c main_v2)
    (fun b s r k hr => acts_entry m c b s r k hr) (scale_entry m c) (fun o => bias_entry m c o)
    (i 0) (i 1) (i 2) (⟨(i 0).val * 32 + (i 1).val, by omega⟩ : Fin 256) rfl
  refine (shapeCast_apply (flatOut m c) shapeCasts_S256x11008_S8x32x11008 i
    (ix2 (⟨(i 0).val * 32 + (i 1).val, by omega⟩ : Fin 256) (i 2)) ?_).trans ?_
  · rw [Shape.rowMajor_val_three, Shape.rowMajor_val_two]
    rfl
  · refine Eq.trans ?_ (key.trans (congrArg (Cert.QLinear.dense (m ((c : Thread nD τ).loc main_arg0))
      (m ((c : Thread nD τ).loc main_arg1)) (m ((c : Thread nD τ).loc main_arg2)) (m ((c : Thread nD τ).loc main_arg3)))
      (eq_ix3 i).symm))
    show Cert.QLinear.denseFlat (V m c main_v0) (V m c main_arg1) (V m c main_v1) (V m c main_v2) _
      = Cert.QLinear.denseFlat (V m c main_v0) (m ((c : Thread nD τ).loc main_arg1)) (V m c main_v1) (V m c main_v2) _
    rw [V_main_arg1]

/-! ### The run -/

/-- Every weakly fair execution of the kernel program terminates with the result buffer holding the layer of the
    arguments and the arguments unchanged. -/
theorem run : θ_run defs (onTc (τ := τ) (main (F := Ideal))) ⟨m, fun _ => 0, ρ⟩ (fun r => ∀ c : Dev nD,
      r.2.mem ((c.tc : Thread nD τ).loc main_v4)
        = Cert.QLinear.dense (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Result

end
-- ==== Proof.lean ====
/- A quantized dense layer: the kernel and its reference compute one function over the extended reals.

   Both programs compute, for activations x[8, 32, 4096], integer weights w[11008, 4096], a one-entry scale and a bias
   of length 11008,

       out[b, s, o] = Σ_{k < 4096} x[b, s, k] · (w[o, k] · scale[0]) + bias[o],

   the integer read signed and exactly (`Cert.QLinear.dense`, Proof/Spec.lean). The kernel flattens the activations to
   256 rows and walks the 11008 output columns in 43 tiles of 256: each step scales one 256×4096 weight tile,
   contracts it against all the activations and adds the bias tile (Proof/KernelBody.lean); the tiles cover the
   256×11008 array (Proof/KernelBlocks.lean), which is then un-flattened (Proof/KernelValue.lean). The kernel's two
   narrowings to a 16-bit float format are the identity on the extended reals, and no law of arithmetic beyond
   re-indexing one finite sum is used, so finiteness of the inputs is never needed. The reference is one contraction
   of the activations' last axis against the scaled weight's last axis plus the broadcast bias (Proof/RefValue.lean).
   The idealization rewrote nothing, so there is nothing to preserve beyond the program text itself. -/
import proofs.«150259_j41420664602841_1_alg».proof.Defs
import proofs.«150259_j41420664602841_1_alg».proof.Proof.Gen.Kernel
import proofs.«150259_j41420664602841_1_alg».proof.Proof.Gen.Kernel.Frame
import proofs.«150259_j41420664602841_1_alg».proof.Proof.Gen.KernelIdeal
import proofs.«150259_j41420664602841_1_alg».proof.Proof.Gen.KernelIdeal.Frame
import proofs.«150259_j41420664602841_1_alg».proof.Proof.Gen.ReferenceIdeal
import proofs.«150259_j41420664602841_1_alg».proof.Proof.Gen.ReferenceIdeal.Run
import proofs.«150259_j41420664602841_1_alg».proof.Proof.Gen.ReferenceIdeal.Read
import proofs.«150259_j41420664602841_1_alg».proof.Proof.Gen.Pre_finite_inputs
import proofs.«150259_j41420664602841_1_alg».proof.Proof.RefValue
import proofs.«150259_j41420664602841_1_alg».proof.Proof.KernelValue
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and keeps its arguments: its run, with the result's value dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the four arguments both programs end with the layer of those arguments in their
    result buffers. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.ref_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
